-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : FVec F S256x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S2000x256 : Shape := ⟨2, ![2000, 256]⟩
abbrev S2000x128 : Shape := ⟨2, ![2000, 128]⟩
abbrev S800000x128 : Shape := ⟨2, ![800000, 128]⟩
abbrev S50000x1 : Shape := ⟨2, ![50000, 1]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 83
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000x1, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x1, .f32⟩
  | .hbm, ⟨52, _⟩ => ⟨S1x128, .f32⟩
  | .hbm, ⟨53, _⟩ => ⟨S50000x128, .f32⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000, .f32⟩
  | .hbm, ⟨73, _⟩ => ⟨S800000x1, .f32⟩
  | .hbm, ⟨74, _⟩ => ⟨S800000x64, .f32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S50000x1, .f32⟩
  | .hbm, ⟨81, _⟩ => ⟨S1x64, .f32⟩
  | .hbm, ⟨82, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000, .f32⟩
  | .hbm, ⟨44, _⟩ => ⟨S800000x1, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000, .f32⟩
  | .hbm, ⟨79, _⟩ => ⟨S800000x1, .f32⟩
  | .hbm, ⟨80, _⟩ => ⟨S800000x64, .f32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_cst : Ref sig .tc := ⟨.hbm, 57, rfl⟩
abbrev main_call0_v0 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.HostStages.lean ====
/-
  The host operations around the four regions, one stretch at a time, read in the reference's vocabulary.

  The program's host side and the reference apply the same operations: the degree norms (a scatter-add of ones at the
  source and at the destination indices, clamped below at 1, then the reciprocal square root), and per layer the gather
  of the transformed rows at the (wrapped) source indices, their product with the gathered source norm, and the
  scatter-add of the messages at the destination indices. So what a stretch leaves in each buffer a region reads is
  the reference's stage of the same name, provided the buffers the stretch itself reads hold the reference's stages.
  The column d of destination norms and the bias row reach a region as casts of a vector to a one-column and to a
  one-row array. Nothing here depends on the float instance: the stretches are compared as terms.
-/
import proofs.«135512_j31576599560550_1_alg».proof.Proof.Gen.KernelIdeal.Frame
import proofs.«135512_j31576599560550_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-! ## Before region 0: the degree norms, and the arguments untouched -/

/-- The source-degree norm is the reference's. -/
theorem W1_v9 (c : Dev nD) :
    W1 m ρ c (Proc.devRef .tc main_v9) = Cert.ReferenceIdeal.Read.val_main_v9 (F := F) (m ((c : Thread nD τ).loc main_arg5)) := by
  show StableHlo.after hostOps0 (W0 m ρ c) (Proc.devRef .tc main_v9) = _
  after_results
  rfl

/-- The destination-degree norm is the reference's. -/
theorem W1_v12 (c : Dev nD) :
    W1 m ρ c (Proc.devRef .tc main_v12) = Cert.ReferenceIdeal.Read.val_main_v12 (F := F) (m ((c : Thread nD τ).loc main_arg6)) := by
  show StableHlo.after hostOps0 (W0 m ρ c) (Proc.devRef .tc main_v12) = _
  after_results
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results

/-! ## Between regions 0 and 1: the first layer's messages aggregated, the norm column and the bias row -/

set_option maxHeartbeats 2000000 in
/-- The aggregated messages of the first layer are the reference's, when the transformed rows and the source norm are. -/
theorem W3_v33 (c : Dev nD) (x0 : (⟨S50000x256, .f32⟩ : BufTy).Contents (Elt F)) (x1 : (⟨S256x128, .f32⟩ : BufTy).Contents (Elt F))
    (x5 x6 : (⟨S800000, .i32⟩ : BufTy).Contents (Elt F))
    (h13 : W2 m ρ c (Proc.devRef .tc main_v13) = Cert.ReferenceIdeal.Read.val_main_v13 (F := F) x0 x1)
    (h9 : W2 m ρ c (Proc.devRef .tc main_v9) = Cert.ReferenceIdeal.Read.val_main_v9 (F := F) x5)
    (h5 : W2 m ρ c (Proc.devRef .tc main_arg5) = x5) (h6 : W2 m ρ c (Proc.devRef .tc main_arg6) = x6) :
    W3 m ρ c (Proc.devRef .tc main_v33) = Cert.ReferenceIdeal.Read.val_main_v33 (F := F) x0 x1 x5 x6 := by
  show StableHlo.after hostOps1 (W2 m ρ c) (Proc.devRef .tc main_v33) = _
  after_results_simp
  rw [h13, h9, h5, h6]
  rfl

/-- The norm column is the destination norm cast to one column. -/
theorem W3_v34 (c : Dev nD) (d : (⟨S50000, .f32⟩ : BufTy).Contents (Elt F))
    (h12 : W2 m ρ c (Proc.devRef .tc main_v12) = d) :
    W3 m ρ c (Proc.devRef .tc main_v34) = shapeCast S50000x1 d shapeCasts_S50000_S50000x1 := by
  show StableHlo.after hostOps1 (W2 m ρ c) (Proc.devRef .tc main_v34) = _
  after_results
  rw [h12]
  rfl

/-- The bias row is the first bias vector cast to one row. -/
theorem W3_v35 (c : Dev nD) (b : (⟨S128, .f32⟩ : BufTy).Contents (Elt F))
    (h2 : W2 m ρ c (Proc.devRef .tc main_arg2) = b) :
    W3 m ρ c (Proc.devRef .tc main_v35) = shapeCast S1x128 b shapeCasts_S128_S1x128 := by
  show StableHlo.after hostOps1 (W2 m ρ c) (Proc.devRef .tc main_v35) = _
  after_results
  rw [h2]
  rfl

theorem W3_v9 (c : Dev nD) : W3 m ρ c (Proc.devRef .tc main_v9) = W2 m ρ c (Proc.devRef .tc main_v9) := by
  show StableHlo.after hostOps1 (W2 m ρ c) (Proc.devRef .tc main_v9) = _
  after_results
theorem W3_v12 (c : Dev nD) : W3 m ρ c (Proc.devRef .tc main_v12) = W2 m ρ c (Proc.devRef .tc main_v12) := by
  show StableHlo.after hostOps1 (W2 m ρ c) (Proc.devRef .tc main_v12) = _
  after_results
theorem W3_arg3 (c : Dev nD) : W3 m ρ c (Proc.devRef .tc main_arg3) = W2 m ρ c (Proc.devRef .tc main_arg3) := by
  show StableHlo.after hostOps1 (W2 m ρ c) (Proc.devRef .tc main_arg3) = _
  after_results
theorem W3_arg4 (c : Dev nD) : W3 m ρ c (Proc.devRef .tc main_arg4) = W2 m ρ c (Proc.devRef .tc main_arg4) := by
  show StableHlo.after hostOps1 (W2 m ρ c) (Proc.devRef .tc main_arg4) = _
  after_results
theorem W3_arg5 (c : Dev nD) : W3 m ρ c (Proc.devRef .tc main_arg5) = W2 m ρ c (Proc.devRef .tc main_arg5) := by
  show StableHlo.after hostOps1 (W2 m ρ c) (Proc.devRef .tc main_arg5) = _
  after_results
theorem W3_arg6 (c : Dev nD) : W3 m ρ c (Proc.devRef .tc main_arg6) = W2 m ρ c (Proc.devRef .tc main_arg6) := by
  show StableHlo.after hostOps1 (W2 m ρ c) (Proc.devRef .tc main_arg6) = _
  after_results

/-! ## Between regions 2 and 3: the second layer's messages aggregated, the norm column and the bias row -/

set_option maxHeartbeats 2000000 in
/-- The aggregated messages of the second layer are the reference's, when the transformed rows and the source norm are. -/
theorem W6_v57 (c : Dev nD) (x0 : (⟨S50000x256, .f32⟩ : BufTy).Contents (Elt F)) (x1 : (⟨S256x128, .f32⟩ : BufTy).Contents (Elt F))
    (x2 : (⟨S128, .f32⟩ : BufTy).Contents (Elt F)) (x3 : (⟨S128x64, .f32⟩ : BufTy).Contents (Elt F))
    (x5 x6 : (⟨S800000, .i32⟩ : BufTy).Contents (Elt F))
    (h37 : W5 m ρ c (Proc.devRef .tc main_v37) = Cert.ReferenceIdeal.Read.val_main_v41 (F := F) x0 x1 x2 x3 x5 x6)
    (h9 : W5 m ρ c (Proc.devRef .tc main_v9) = Cert.ReferenceIdeal.Read.val_main_v9 (F := F) x5)
    (h5 : W5 m ρ c (Proc.devRef .tc main_arg5) = x5) (h6 : W5 m ρ c (Proc.devRef .tc main_arg6) = x6) :
    W6 m ρ c (Proc.devRef .tc main_v57) = Cert.ReferenceIdeal.Read.val_main_v61 (F := F) x0 x1 x2 x3 x5 x6 := by
  show StableHlo.after hostOps3 (W5 m ρ c) (Proc.devRef .tc main_v57) = _
  after_results_simp
  rw [h37, h9, h5, h6]
  rfl

/-- The norm column is the destination norm cast to one column. -/
theorem W6_v58 (c : Dev nD) (d : (⟨S50000, .f32⟩ : BufTy).Contents (Elt F))
    (h12 : W5 m ρ c (Proc.devRef .tc main_v12) = d) :
    W6 m ρ c (Proc.devRef .tc main_v58) = shapeCast S50000x1 d shapeCasts_S50000_S50000x1 := by
  show StableHlo.after hostOps3 (W5 m ρ c) (Proc.devRef .tc main_v58) = _
  after_results
  rw [h12]
  rfl

/-- The bias row is the second bias vector cast to one row. -/
theorem W6_v59 (c : Dev nD) (b : (⟨S64, .f32⟩ : BufTy).Contents (Elt F))
    (h4 : W5 m ρ c (Proc.devRef .tc main_arg4) = b) :
    W6 m ρ c (Proc.devRef .tc main_v59) = shapeCast S1x64 b shapeCasts_S64_S1x64 := by
  show StableHlo.after hostOps3 (W5 m ρ c) (Proc.devRef .tc main_v59) = _
  after_results
  rw [h4]
  rfl

end Cert.KernelIdeal.Hand

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Product0.lean ====
/-
  Region 0, the first dense product: each grid point t multiplies rows 2000·t … 2000·t + 1999 of the feature
  array by the whole weight array and writes the 2000 × 128 result back as block t of the output. Over the
  extended reals the change of format on the way into the product is the identity and the product into a zero
  accumulator is the plain sum over the contracted coordinate, so the output array, whose 25 blocks tile it, ends
  holding the product of the two argument arrays: entry (r, q) is the sum over k of x(r, k) · w(k, q).
-/
import proofs.«135512_j31576599560550_1_alg».proof.Proof.Gen.KernelIdeal.Frame
import proofs.«135512_j31576599560550_1_alg».proof.Proof.LibPlainProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the sum over the contracted coordinate of the loaded blocks' entries. -/
theorem pay0_apply (x0 : Vec Ideal S2000x256 .f32) (x1 : Vec Ideal S256x128 .f32) (p : Fin 2000) (q : Fin 128) :
    k0_pay1 (F := Ideal) x0 x1 (ix2 p q) = ∑ k : Fin 256, x0 (ix2 p k) * x1 (ix2 k q) := by
  unfold k0_pay1
  exact Cert.PlainProduct.matmul_zero_apply (M := 2000) (K := 256) (N := 128) none
    (truncf (F := Ideal) .bf16 x0 bitsLt_bf16_f32) (truncf (F := Ideal) .bf16 x1 bitsLt_bf16_f32) p q

/-- The product of the feature array by the weight array: entry (r, q) is the sum over k of x(r, k) · w(k, q). -/
abbrev prod0 (x : Vec Ideal S50000x256 .f32) (w : Vec Ideal S256x128 .f32) : Vec Ideal S50000x128 .f32 :=
  Cert.PlainProduct.prod (M := 50000) (K := 256) (N := 128) (φ₁ := .f32) (φ₂ := .f32) x w

/-- A tile of the product: when the loaded blocks are rows tv·2000 … of x and the whole of w, the body's stored value at
    an entry of the block is the product's entry at the matching entry of the array. -/
theorem tile0_eq (x0 : Vec Ideal S2000x256 .f32) (x1 : Vec Ideal S256x128 .f32) (X : Vec Ideal S50000x256 .f32)
    (W : Vec Ideal S256x128 .f32) (tv : Nat) (j : S2000x128.Idx) (i : S50000x128.Idx)
    (hx : ∀ (p : Fin 2000) (k : Fin 256) (r : Fin 50000), r.val = tv * 2000 + p.val → x0 (ix2 p k) = X (ix2 r k))
    (hw : ∀ (k : Fin 256) (q : Fin 128), x1 (ix2 k q) = W (ix2 k q))
    (hi0 : (i 0).val = tv * 2000 + (j 0).val) (hi1 : (i 1).val = (j 1).val) :
    k0_pay1 (F := Ideal) x0 x1 j = prod0 X W i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay0_apply]
  show _ = ∑ k : Fin 256, X (ix2 r k) * W (ix2 k s)
  refine Finset.sum_congr rfl fun k _ => ?_
  rw [hx p k r hi0, hw k s]

/-- The feature array and the weight array as the region finds them. -/
abbrev xarr0 (c : Dev nD) : Vec Ideal S50000x256 .f32 := V c main_arg0
abbrev warr0 (c : Dev nD) : Vec Ideal S256x128 .f32 := V c main_arg1

/-- The block index of each window at point t. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 2000·t … of the feature array. -/
theorem xblk0_apply (c : Dev nD) (t : Fin cfg0.N) (p : Fin 2000) (k : Fin 256) (r : Fin 50000)
    (hr : r.val = t.val * 2000 + p.val) :
    (iblk0 V c 0 t : Vec Ideal S2000x256 .f32) (ix2 p k) = xarr0 V c (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * p.val = r.val; rw [e0, hr]; omega
  | ⟨1, _⟩ => show win0_0.index t 1 * 256 + 1 * k.val = k.val; rw [e1]; omega

/-- The weight window's one block is the whole weight array. -/
theorem wblk0_apply (c : Dev nD) (t : Fin cfg0.N) (k : Fin 256) (q : Fin 128) :
    (iblk0 V c 1 t : Vec Ideal S256x128 .f32) (ix2 k q) = warr0 V c (ix2 k q) := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 256 + 1 * k.val = k.val; rw [e0]; omega
  | ⟨1, _⟩ => show win0_1.index t 1 * 128 + 1 * q.val = q.val; rw [e1]; omega

/-- What point t writes back is block t of the product of the two arrays. -/
theorem flushed0 (c : Dev nD) (t : Fin cfg0.N) :
    (dat0 V c).flushed 2 t
      = ((cfg0.win 2).blk t).view.read (Elt Ideal) (prod0 (xarr0 V c) (warr0 V c)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨-, -, -, -, e0, e1⟩ := idx_facts0 t
  funext j
  show k0_pay1 (F := Ideal) (iblk0 V c 0 t) (iblk0 V c 1 t) j = prod0 (xarr0 V c) (warr0 V c) (((cfg0.win 2).blk t).view.emb j)
  refine tile0_eq (iblk0 V c 0 t) (iblk0 V c 1 t) (xarr0 V c) (warr0 V c) t.val j (((cfg0.win 2).blk t).view.emb j)
    (fun p k r hr => xblk0_apply V c t p k r hr) (fun k q => wblk0_apply V c t k q) ?_ ?_
  · show win0_2.index t 0 * 2000 + 1 * (j 0).val = t.val * 2000 + (j 0).val
    rw [e0]; omega
  · show win0_2.index t 1 * 128 + 1 * (j 1).val = (j 1).val
    rw [e1]; omega

/-- An entry of the output array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v13).slice (win0_2.rect t)).set ↔ _
  rw [View.set_slice_whole, Rect.mem_set_unit]
  exact Iff.rfl

/-- The output array after the region: the product of the two arrays (row r lies in block r / 2000). -/
theorem final0 (c : Dev nD) : (dat0 V c).arrAt 2 cfg0.N = prod0 (xarr0 V c) (warr0 V c) :=
  (dat0 V c).arrAt_eq_of_cover 2 (prod0 (xarr0 V c) (warr0 V c)) (fun t _ => flushed0 V c t) fun i => by
    have hi0 : (i 0).val < 50000 := (i 0).isLt
    have hi1 : (i 1).val < 128 := (i 1).isLt
    have hN : cfg0.N = 25 := rfl
    let t : Fin cfg0.N := ⟨(i 0).val / 2000, by rw [hN]; omega⟩
    obtain ⟨-, -, -, -, e0, e1⟩ := idx_facts0 t
    have ht : t.val = (i 0).val / 2000 := rfl
    refine ⟨t, flush0_2 t, ?_⟩
    rw [mem_blk0]
    intro a
    match a with
    | ⟨0, _⟩ =>
      show win0_2.index t 0 * 2000 ≤ (i 0).val ∧ (i 0).val < win0_2.index t 0 * 2000 + 2000
      rw [e0, ht]; omega
    | ⟨1, _⟩ =>
      show win0_2.index t 1 * 128 ≤ (i 1).val ∧ (i 1).val < win0_2.index t 1 * 128 + 128
      rw [e1]; omega

end Cert.KernelIdeal.Hand

end
-- ==== Proof.Product2.lean ====
/-
  Region 2, the second dense product: each grid point t multiplies rows 2000·t … 2000·t + 1999 of the hidden
  array (the first layer's output) by the whole second weight array and writes the 2000 × 64 result back as block t
  of the output. Over the extended reals the change of format on the way into the product is the identity and the
  product into a zero accumulator is the plain sum over the contracted coordinate, so the output array, whose 25
  blocks tile it, ends holding the product of the two arrays: entry (r, q) is the sum over k of h(r, k) · w(k, q).
-/
import proofs.«135512_j31576599560550_1_alg».proof.Proof.Gen.KernelIdeal.Frame
import proofs.«135512_j31576599560550_1_alg».proof.Proof.LibPlainProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The body's stored value at (p, q): the sum over the contracted coordinate of the loaded blocks' entries (the cast
    of the left block to its own shape changes nothing). -/
theorem pay2_apply (x0 : Vec Ideal S2000x128 .f32) (x1 : Vec Ideal S128x64 .f32) (p : Fin 2000) (q : Fin 64) :
    k2_pay1 (F := Ideal) x0 x1 (ix2 p q) = ∑ k : Fin 128, x0 (ix2 p k) * x1 (ix2 k q) := by
  unfold k2_pay1
  rw [shapeCast_self]
  exact Cert.PlainProduct.matmul_zero_apply (M := 2000) (K := 128) (N := 64) none
    (truncf (F := Ideal) .bf16 x0 bitsLt_bf16_f32) (truncf (F := Ideal) .bf16 x1 bitsLt_bf16_f32) p q

/-- The product of the hidden array by the second weight array: entry (r, q) is the sum over k of h(r, k) · w(k, q). -/
abbrev prod2 (x : Vec Ideal S50000x128 .f32) (w : Vec Ideal S128x64 .f32) : Vec Ideal S50000x64 .f32 :=
  Cert.PlainProduct.prod (M := 50000) (K := 128) (N := 64) (φ₁ := .f32) (φ₂ := .f32) x w

/-- A tile of the product: when the loaded blocks are rows tv·2000 … of h and the whole of w, the body's stored value at
    an entry of the block is the product's entry at the matching entry of the array. -/
theorem tile2_eq (x0 : Vec Ideal S2000x128 .f32) (x1 : Vec Ideal S128x64 .f32) (X : Vec Ideal S50000x128 .f32)
    (W : Vec Ideal S128x64 .f32) (tv : Nat) (j : S2000x64.Idx) (i : S50000x64.Idx)
    (hx : ∀ (p : Fin 2000) (k : Fin 128) (r : Fin 50000), r.val = tv * 2000 + p.val → x0 (ix2 p k) = X (ix2 r k))
    (hw : ∀ (k : Fin 128) (q : Fin 64), x1 (ix2 k q) = W (ix2 k q))
    (hi0 : (i 0).val = tv * 2000 + (j 0).val) (hi1 : (i 1).val = (j 1).val) :
    k2_pay1 (F := Ideal) x0 x1 j = prod2 X W i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hi1
  rw [pay2_apply]
  show _ = ∑ k : Fin 128, X (ix2 r k) * W (ix2 k s)
  refine Finset.sum_congr rfl fun k _ => ?_
  rw [hx p k r hi0, hw k s]

/-- The hidden array and the second weight array as the region finds them. -/
abbrev xarr2 (c : Dev nD) : Vec Ideal S50000x128 .f32 := V c main_v36
abbrev warr2 (c : Dev nD) : Vec Ideal S128x64 .f32 := V c main_arg3

/-- The block index of each window at point t. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The hidden window's block at point t is rows 2000·t … of the hidden array. -/
theorem xblk2_apply (c : Dev nD) (t : Fin cfg2.N) (p : Fin 2000) (k : Fin 128) (r : Fin 50000)
    (hr : r.val = t.val * 2000 + p.val) :
    (iblk2 V c 0 t : Vec Ideal S2000x128 .f32) (ix2 p k) = xarr2 V c (ix2 r k) := by
  obtain ⟨e0, e1, -⟩ := idx_facts2 t
  unfold iblk2
  rw [View.read_apply]
  show V c main_v36 _ = V c main_v36 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- The weight window's one block is the whole weight array. -/
theorem wblk2_apply (c : Dev nD) (t : Fin cfg2.N) (k : Fin 128) (q : Fin 64) :
    (iblk2 V c 1 t : Vec Ideal S128x64 .f32) (ix2 k q) = warr2 V c (ix2 k q) := by
  obtain ⟨-, -, e0, e1, -⟩ := idx_facts2 t
  unfold iblk2
  rw [View.read_apply]
  show V c main_arg3 _ = V c main_arg3 _
  congr 1
  funext a
  apply Fin.ext
  match a with
  | ⟨0, _⟩ => show win2_1.index t 0 * 128 + 1 * k.val = k.val; rw [e0]; omega
  | ⟨1, _⟩ => show win2_1.index t 1 * 64 + 1 * q.val = q.val; rw [e1]; omega

/-- What point t writes back is block t of the product of the two arrays. -/
theorem flushed2 (c : Dev nD) (t : Fin cfg2.N) :
    (dat2 V c).flushed 2 t
      = ((cfg2.win 2).blk t).view.read (Elt Ideal) (prod2 (xarr2 V c) (warr2 V c)) := by
  show (cfg2.win 2).cut (grid2.coords t) ((dat2 V c).after 2 t) = _
  rw [after2_2]
  unfold out2_2
  rw [View.canon_unit_zero hz2]
  simp only [View.ld_unit_zero (S := S2000x128) hz2, View.ld_unit_zero (S := S128x64) hz2]
  obtain ⟨-, -, -, -, e0, e1⟩ := idx_facts2 t
  funext j
  show k2_pay1 (F := Ideal) (iblk2 V c 0 t) (iblk2 V c 1 t) j = prod2 (xarr2 V c) (warr2 V c) (((cfg2.win 2).blk t).view.emb j)
  refine tile2_eq (iblk2 V c 0 t) (iblk2 V c 1 t) (xarr2 V c) (warr2 V c) t.val j (((cfg2.win 2).blk t).view.emb j)
    (fun p k r hr => xblk2_apply V c t p k r hr) (fun k q => wblk2_apply V c t k q) ?_ ?_
  · show win2_2.index t 0 * 2000 + 1 * (j 0).val = t.val * 2000 + (j 0).val
    rw [e0]; omega
  · show win2_2.index t 1 * 64 + 1 * (j 1).val = (j 1).val
    rw [e1]; omega

/-- An entry of the output array is in point t's block iff each coordinate is in the block's range on its axis. -/
theorem mem_blk2 (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v37).slice (win2_2.rect t)).set ↔ _
  rw [View.set_slice_whole, Rect.mem_set_unit]
  exact Iff.rfl

/-- The output array after the region: the product of the two arrays (row r lies in block r / 2000). -/
theorem final2 (c : Dev nD) : (dat2 V c).arrAt 2 cfg2.N = prod2 (xarr2 V c) (warr2 V c) :=
  (dat2 V c).arrAt_eq_of_cover 2 (prod2 (xarr2 V c) (warr2 V c)) (fun t _ => flushed2 V c t) fun i => by
    have hi0 : (i 0).val < 50000 := (i 0).isLt
    have hi1 : (i 1).val < 64 := (i 1).isLt
    have hN : cfg2.N = 25 := rfl
    let t : Fin cfg2.N := ⟨(i 0).val / 2000, by rw [hN]; omega⟩
    obtain ⟨-, -, -, -, e0, e1⟩ := idx_facts2 t
    have ht : t.val = (i 0).val / 2000 := rfl
    refine ⟨t, flush2_2 t, ?_⟩
    rw [mem_blk2]
    intro a
    match a with
    | ⟨0, _⟩ =>
      show win2_2.index t 0 * 2000 ≤ (i 0).val ∧ (i 0).val < win2_2.index t 0 * 2000 + 2000
      rw [e0, ht]; omega
    | ⟨1, _⟩ =>
      show win2_2.index t 1 * 64 ≤ (i 1).val ∧ (i 1).val < win2_2.index t 1 * 64 + 64
      rw [e1]; omega

end Cert.KernelIdeal.Hand

end
-- ==== Proof.LibScaleTile.lean ====
/-
  A tile scaled by a column on the left and a row on the right, read at one entry.

  For a tile `a` of shape [r, l], a column `ci` of shape [r, 1] and a row `rj` of shape [1, l], the vector
  expression  (broadcast ci) * a * (broadcast rj)  — the column broadcast along the lanes, the row along the
  sublanes, the two products taken left to right — has at entry (p, q) the value  (ci[p,0] * a[p,q]) * rj[0,q].
  Every operation involved is pointwise or a re-indexing, so this holds at every float instance: nothing about
  the arithmetic of the products is used. A consequence used for tiles that are only partly meaningful: the
  entry (p, q) depends on the operands only through ci[p,0], a[p,q] and rj[0,q].
  Also the keepdims column forms the library's layout lemmas leave out: a column [r, 1] broadcast along the lanes, and
  a vector [a] cast to a column [a, 1].
-/
import Idealize.ShloMosaic.Lib.Pipeline.Value
import Idealize.ShloMosaic.Lib.ValueLayout

noncomputable section

namespace Cert.ScaleTile

open Idealize.ShloMosaic Idealize.ShloMosaic.ValueIdx

variable {α : Type}

/-- A column [r, 1] broadcast along the lanes to [r, l] reads, at (p, q), the column's entry p. -/
theorem colBroadcast_apply {r l : ℕ} (v : (⟨2, ![r, 1]⟩ : Shape).Idx → α) (h : (⟨2, ![r, 1]⟩ : Shape).Broadcasts ⟨2, ![r, l]⟩)
    (p : Fin r) (q : Fin l) : broadcastTo ⟨2, ![r, l]⟩ v h (ix2 p q) = v (ix2 p (0 : Fin 1)) := by
  refine broadcastTo_apply v h (ix2 p q) (ix2 p (0 : Fin 1)) fun ax => ?_
  match ax with
  | ⟨0, _⟩ =>
    show p.val = if r = 1 then 0 else p.val
    split
    · have := p.isLt; omega
    · rfl
  | ⟨1, _⟩ => rfl

/-- A vector [a] cast to a column [a, 1] reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

variable {F : FTy → Type} [FloatOps F]

/-- The scaled tile at entry (p, q): the column's entry p times the tile's entry (p, q), times the row's entry q. The two
    shape casts are casts of a shape to itself, as the kernel's lowering leaves them. -/
theorem scaled_apply {r l : ℕ} (ci : FVec F ⟨2, ![r, 1]⟩ .f32) (a : FVec F ⟨2, ![r, l]⟩ .f32) (rj : FVec F ⟨2, ![1, l]⟩ .f32)
    (hc : (⟨2, ![r, 1]⟩ : Shape).ShapeCasts ⟨2, ![r, 1]⟩) (hcb : (⟨2, ![r, 1]⟩ : Shape).Broadcasts ⟨2, ![r, l]⟩)
    (hr : (⟨2, ![1, l]⟩ : Shape).ShapeCasts ⟨2, ![1, l]⟩) (hrb : (⟨2, ![1, l]⟩ : Shape).Broadcasts ⟨2, ![r, l]⟩)
    (p : Fin r) (q : Fin l) :
    mulf (mulf (broadcastTo ⟨2, ![r, l]⟩ (shapeCast ⟨2, ![r, 1]⟩ ci hc) hcb) a)
        (broadcastTo ⟨2, ![r, l]⟩ (shapeCast ⟨2, ![1, l]⟩ rj hr) hrb) (ix2 p q)
      = FloatOps.mulf (FloatOps.mulf (ci (ix2 p (0 : Fin 1))) (a (ix2 p q))) (rj (ix2 (0 : Fin 1) q)) := by
  show FloatOps.mulf (FloatOps.mulf (broadcastTo ⟨2, ![r, l]⟩ (shapeCast ⟨2, ![r, 1]⟩ ci hc) hcb (ix2 p q)) (a (ix2 p q)))
      (broadcastTo ⟨2, ![r, l]⟩ (shapeCast ⟨2, ![1, l]⟩ rj hr) hrb (ix2 p q)) = _
  rw [colBroadcast_apply, broadcastTo_1b_ab_apply, shapeCast_self, shapeCast_self]

end Cert.ScaleTile

end
-- ==== Proof.ScaleBias1.lean ====
/-
  Region 1, the first scale-and-bias pass with the rectifier: each grid point t takes rows 2000·t … 2000·t + 1999
  of the aggregated array a, the same rows of the degree-norm column d, and the whole bias row b, and writes
  max(a(r, q) · d(r, 0) + b(0, q), 0) back as block t of the output. Every operation is pointwise or a re-indexing, so
  this holds at every float instance. The 25 blocks tile the output array, which therefore ends holding that function
  of the three arrays at every entry.
-/
import proofs.«135512_j31576599560550_1_alg».proof.Proof.Gen.KernelIdeal.Frame
import proofs.«135512_j31576599560550_1_alg».proof.Proof.LibScaleTile
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-- The body's stored value at (p, q). -/
theorem pay1_apply (x0 : Vec F S2000x128 .f32) (x1 : Vec F S2000x1 .f32) (x2 : Vec F S1x128 .f32) (p : Fin 2000) (q : Fin 128) :
    k1_pay1 x0 x1 x2 (ix2 p q)
      = FloatOps.maximumf (FloatOps.addf (FloatOps.mulf (x0 (ix2 p q)) (x1 (ix2 p (0 : Fin 1)))) (x2 (ix2 (0 : Fin 1) q)))
          (FloatOps.ofBits .f32 0x00000000#32) := by
  unfold k1_pay1
  show FloatOps.maximumf (FloatOps.addf (FloatOps.mulf (shapeCast S2000x128 x0 shapeCasts_S2000x128_S2000x128 (ix2 p q))
      (broadcastTo S2000x128 (shapeCast S2000x1 x1 shapeCasts_S2000x1_S2000x1) broadcasts_S2000x1_S2000x128 (ix2 p q)))
      (broadcastTo S2000x128 (shapeCast S1x128 x2 shapeCasts_S1x128_S1x128) broadcasts_S1x128_S2000x128 (ix2 p q))) _ = _
  rw [Cert.ScaleTile.colBroadcast_apply, broadcastTo_1b_ab_apply, shapeCast_self, shapeCast_self, shapeCast_self]
  rfl

/-- The scale-and-bias pass with the rectifier as one function of whole arrays. -/
def scaleBiasRelu (a : Vec F S50000x128 .f32) (d : Vec F S50000x1 .f32) (b : Vec F S1x128 .f32) : Vec F S50000x128 .f32 :=
  fun i => FloatOps.maximumf (FloatOps.addf (FloatOps.mulf (a i) (d (ix2 (⟨(i 0).val, (i 0).isLt⟩ : Fin 50000) (0 : Fin 1))))
      (b (ix2 (0 : Fin 1) (⟨(i 1).val, (i 1).isLt⟩ : Fin 128)))) (FloatOps.ofBits .f32 0x00000000#32)

theorem scaleBiasRelu_apply (a : Vec F S50000x128 .f32) (d : Vec F S50000x1 .f32) (b : Vec F S1x128 .f32) (r : Fin 50000) (q : Fin 128) :
    scaleBiasRelu a d b (ix2 r q)
      = FloatOps.maximumf (FloatOps.addf (FloatOps.mulf (a (ix2 r q)) (d (ix2 r (0 : Fin 1)))) (b (ix2 (0 : Fin 1) q)))
          (FloatOps.ofBits .f32 0x00000000#32) := rfl

/-- A tile of the pass: when the loaded blocks are rows tv·2000 … of a and of d and the whole of b, the body's stored
    value at an entry of the block is the pass's value at the matching entry of the array. -/
theorem tile1_eq (x0 : Vec F S2000x128 .f32) (x1 : Vec F S2000x1 .f32) (x2 : Vec F S1x128 .f32)
    (A : Vec F S50000x128 .f32) (D : Vec F S50000x1 .f32) (B : Vec F S1x128 .f32) (tv : Nat) (j : S2000x128.Idx) (i : S50000x128.Idx)
    (ha : ∀ (p : Fin 2000) (q : Fin 128) (r : Fin 50000), r.val = tv * 2000 + p.val → x0 (ix2 p q) = A (ix2 r q))
    (hd : ∀ (p : Fin 2000) (r : Fin 50000), r.val = tv * 2000 + p.val → x1 (ix2 p (0 : Fin 1)) = D (ix2 r (0 : Fin 1)))
    (hb : ∀ (q : Fin 128), x2 (ix2 (0 : Fin 1) q) = B (ix2 (0 : Fin 1) q))
    (hi0 : (i 0).val = tv * 2000 + (j 0).val) (hi1 : (i 1).val = (j 1).val) :
    k1_pay1 x0 x1 x2 j = scaleBiasRelu A D B i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hi1
  rw [pay1_apply, scaleBiasRelu_apply, ha p s r hi0, hd p r hi0, hb s]

/-- The three arrays as the region finds them. -/
abbrev aarr1 (c : Dev nD) : Vec F S50000x128 .f32 := V c main_v33
abbrev darr1 (c : Dev nD) : Vec F S50000x1 .f32 := V c main_v34
abbrev barr1 (c : Dev nD) : Vec F S1x128 .f32 := V c main_v35

/-- The block index of each window at point t. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem ablk1_apply (c : Dev nD) (t : Fin cfg1.N) (p : Fin 2000) (q : Fin 128) (r : Fin 50000)
    (hr : r.val = t.val * 2000 + p.val) :
    (iblk1 V c 0 t : Vec F S2000x128 .f32) (ix2 p q) = aarr1 V c (ix2 r q) := by
  obtain ⟨e0, e1, -⟩ := idx_facts1 t
  unfold iblk1
  rw [View.read_apply]
  show V c main_v33 _ = V c main_v33 _
  congr 1
  funext a
  apply Fin.ext
  match a with
  | ⟨0, _⟩ => show win1_0.index t 0 * 2000 + 1 * p.val = r.val; rw [e0, hr]; omega
  | ⟨1, _⟩ => show win1_0.index t 1 * 128 + 1 * q.val = q.val; rw [e1]; omega

theorem dblk1_apply (c : Dev nD) (t : Fin cfg1.N) (p : Fin 2000) (r : Fin 50000)
    (hr : r.val = t.val * 2000 + p.val) :
    (iblk1 V c 1 t : Vec F S2000x1 .f32) (ix2 p (0 : Fin 1)) = darr1 V c (ix2 r (0 : Fin 1)) := by
  obtain ⟨-, -, e0, e1, -⟩ := idx_facts1 t
  unfold iblk1
  rw [View.read_apply]
  show V c main_v34 _ = V c main_v34 _
  congr 1
  funext a
  apply Fin.ext
  match a with
  | ⟨0, _⟩ => show win1_1.index t 0 * 2000 + 1 * p.val = r.val; rw [e0, hr]; omega
  | ⟨1, _⟩ => show win1_1.index t 1 * 1 + 1 * 0 = 0; rw [e1]

theorem bblk1_apply (c : Dev nD) (t : Fin cfg1.N) (q : Fin 128) :
    (iblk1 V c 2 t : Vec F S1x128 .f32) (ix2 (0 : Fin 1) q) = barr1 V c (ix2 (0 : Fin 1) q) := by
  obtain ⟨-, -, -, -, e0, e1, -⟩ := idx_facts1 t
  unfold iblk1
  rw [View.read_apply]
  show V c main_v35 _ = V c main_v35 _
  congr 1
  funext a
  apply Fin.ext
  match a with
  | ⟨0, _⟩ => show win1_2.index t 0 * 1 + 1 * 0 = 0; rw [e0]
  | ⟨1, _⟩ => show win1_2.index t 1 * 128 + 1 * q.val = q.val; rw [e1]; omega

/-- What point t writes back is block t of the pass applied to the whole arrays. -/
theorem flushed1 (c : Dev nD) (t : Fin cfg1.N) :
    (dat1 V c).flushed 3 t
      = ((cfg1.win 3).blk t).view.read (Elt F) (scaleBiasRelu (aarr1 V c) (darr1 V c) (barr1 V c)) := by
  show (cfg1.win 3).cut (grid1.coords t) ((dat1 V c).after 3 t) = _
  rw [after1_3]
  unfold out1_3
  rw [View.canon_unit_zero hz1]
  simp only [View.ld_unit_zero (S := S2000x128) hz1, View.ld_unit_zero (S := S2000x1) hz1, View.ld_unit_zero (S := S1x128) hz1]
  obtain ⟨-, -, -, -, -, -, e0, e1⟩ := idx_facts1 t
  funext j
  show k1_pay1 (iblk1 V c 0 t) (iblk1 V c 1 t) (iblk1 V c 2 t) j
    = scaleBiasRelu (aarr1 V c) (darr1 V c) (barr1 V c) (((cfg1.win 3).blk t).view.emb j)
  refine tile1_eq (iblk1 V c 0 t) (iblk1 V c 1 t) (iblk1 V c 2 t) (aarr1 V c) (darr1 V c) (barr1 V c) t.val j
    (((cfg1.win 3).blk t).view.emb j)
    (fun p q r hr => ablk1_apply V c t p q r hr) (fun p r hr => dblk1_apply V c t p r hr) (fun q => bblk1_apply V c t q) ?_ ?_
  · show win1_3.index t 0 * 2000 + 1 * (j 0).val = t.val * 2000 + (j 0).val
    rw [e0]; omega
  · show win1_3.index t 1 * 128 + 1 * (j 1).val = (j 1).val
    rw [e1]; omega

/-- An entry of the output array is in point t's block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v36).slice (win1_3.rect t)).set ↔ _
  rw [View.set_slice_whole, Rect.mem_set_unit]
  exact Iff.rfl

/-- The output array after the region: the pass applied to the three arrays (row r lies in block r / 2000). -/
theorem final1 (c : Dev nD) : (dat1 V c).arrAt 3 cfg1.N = scaleBiasRelu (aarr1 V c) (darr1 V c) (barr1 V c) :=
  (dat1 V c).arrAt_eq_of_cover 3 (scaleBiasRelu (aarr1 V c) (darr1 V c) (barr1 V c)) (fun t _ => flushed1 V c t) fun i => by
    have hi0 : (i 0).val < 50000 := (i 0).isLt
    have hi1 : (i 1).val < 128 := (i 1).isLt
    have hN : cfg1.N = 25 := rfl
    let t : Fin cfg1.N := ⟨(i 0).val / 2000, by rw [hN]; omega⟩
    obtain ⟨-, -, -, -, -, -, e0, e1⟩ := idx_facts1 t
    have ht : t.val = (i 0).val / 2000 := rfl
    refine ⟨t, flush1_3 t, ?_⟩
    rw [mem_blk1]
    intro a
    match a with
    | ⟨0, _⟩ =>
      show win1_3.index t 0 * 2000 ≤ (i 0).val ∧ (i 0).val < win1_3.index t 0 * 2000 + 2000
      rw [e0, ht]; omega
    | ⟨1, _⟩ =>
      show win1_3.index t 1 * 128 ≤ (i 1).val ∧ (i 1).val < win1_3.index t 1 * 128 + 128
      rw [e1]; omega

end Cert.KernelIdeal.Hand

end
-- ==== Proof.ScaleBias3.lean ====
/-
  Region 3, the second scale-and-bias pass (no rectifier): each grid point t takes rows 2000·t … 2000·t + 1999 of
  the aggregated array a, the same rows of the degree-norm column d, and the whole bias row b, and writes
  a(r, q) · d(r, 0) + b(0, q) back as block t of the output. Every operation is pointwise or a re-indexing, so this
  holds at every float instance. The 25 blocks tile the output array, which therefore ends holding that function of
  the three arrays at every entry.
-/
import proofs.«135512_j31576599560550_1_alg».proof.Proof.Gen.KernelIdeal.Frame
import proofs.«135512_j31576599560550_1_alg».proof.Proof.LibScaleTile
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (V : (c : Dev nD) → (b : Ref sig .tc) → Buf (Elt F) ((c : Thread nD τ).loc b))

theorem hz3 : (![0, 0] : Fin 2 → Nat) = fun _ => 0 := funext fun a => by fin_cases a <;> rfl

/-- The body's stored value at (p, q). -/
theorem pay3_apply (x0 : Vec F S2000x64 .f32) (x1 : Vec F S2000x1 .f32) (x2 : Vec F S1x64 .f32) (p : Fin 2000) (q : Fin 64) :
    k3_pay1 x0 x1 x2 (ix2 p q)
      = FloatOps.addf (FloatOps.mulf (x0 (ix2 p q)) (x1 (ix2 p (0 : Fin 1)))) (x2 (ix2 (0 : Fin 1) q)) := by
  unfold k3_pay1
  show FloatOps.addf (FloatOps.mulf (shapeCast S2000x64 x0 shapeCasts_S2000x64_S2000x64 (ix2 p q))
      (broadcastTo S2000x64 (shapeCast S2000x1 x1 shapeCasts_S2000x1_S2000x1) broadcasts_S2000x1_S2000x64 (ix2 p q)))
      (broadcastTo S2000x64 (shapeCast S1x64 x2 shapeCasts_S1x64_S1x64) broadcasts_S1x64_S2000x64 (ix2 p q)) = _
  rw [Cert.ScaleTile.colBroadcast_apply, broadcastTo_1b_ab_apply, shapeCast_self, shapeCast_self, shapeCast_self]

/-- The scale-and-bias pass as one function of whole arrays. -/
def scaleBias (a : Vec F S50000x64 .f32) (d : Vec F S50000x1 .f32) (b : Vec F S1x64 .f32) : Vec F S50000x64 .f32 :=
  fun i => FloatOps.addf (FloatOps.mulf (a i) (d (ix2 (⟨(i 0).val, (i 0).isLt⟩ : Fin 50000) (0 : Fin 1))))
      (b (ix2 (0 : Fin 1) (⟨(i 1).val, (i 1).isLt⟩ : Fin 64)))

theorem scaleBias_apply (a : Vec F S50000x64 .f32) (d : Vec F S50000x1 .f32) (b : Vec F S1x64 .f32) (r : Fin 50000) (q : Fin 64) :
    scaleBias a d b (ix2 r q)
      = FloatOps.addf (FloatOps.mulf (a (ix2 r q)) (d (ix2 r (0 : Fin 1)))) (b (ix2 (0 : Fin 1) q)) := rfl

/-- A tile of the pass: when the loaded blocks are rows tv·2000 … of a and of d and the whole of b, the body's stored
    value at an entry of the block is the pass's value at the matching entry of the array. -/
theorem tile3_eq (x0 : Vec F S2000x64 .f32) (x1 : Vec F S2000x1 .f32) (x2 : Vec F S1x64 .f32)
    (A : Vec F S50000x64 .f32) (D : Vec F S50000x1 .f32) (B : Vec F S1x64 .f32) (tv : Nat) (j : S2000x64.Idx) (i : S50000x64.Idx)
    (ha : ∀ (p : Fin 2000) (q : Fin 64) (r : Fin 50000), r.val = tv * 2000 + p.val → x0 (ix2 p q) = A (ix2 r q))
    (hd : ∀ (p : Fin 2000) (r : Fin 50000), r.val = tv * 2000 + p.val → x1 (ix2 p (0 : Fin 1)) = D (ix2 r (0 : Fin 1)))
    (hb : ∀ (q : Fin 64), x2 (ix2 (0 : Fin 1) q) = B (ix2 (0 : Fin 1) q))
    (hi0 : (i 0).val = tv * 2000 + (j 0).val) (hi1 : (i 1).val = (j 1).val) :
    k3_pay1 x0 x1 x2 j = scaleBias A D B i := by
  obtain ⟨p, q, rfl⟩ : ∃ (p : Fin 2000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hi1
  rw [pay3_apply, scaleBias_apply, ha p s r hi0, hd p r hi0, hb s]

/-- The three arrays as the region finds them. -/
abbrev aarr3 (c : Dev nD) : Vec F S50000x64 .f32 := V c main_v57
abbrev darr3 (c : Dev nD) : Vec F S50000x1 .f32 := V c main_v58
abbrev barr3 (c : Dev nD) : Vec F S1x64 .f32 := V c main_v59

/-- The block index of each window at point t. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem ablk3_apply (c : Dev nD) (t : Fin cfg3.N) (p : Fin 2000) (q : Fin 64) (r : Fin 50000)
    (hr : r.val = t.val * 2000 + p.val) :
    (iblk3 V c 0 t : Vec F S2000x64 .f32) (ix2 p q) = aarr3 V c (ix2 r q) := by
  obtain ⟨e0, e1, -⟩ := idx_facts3 t
  unfold iblk3
  rw [View.read_apply]
  show V c main_v57 _ = V c main_v57 _
  congr 1
  funext a
  apply Fin.ext
  match a with
  | ⟨0, _⟩ => show win3_0.index t 0 * 2000 + 1 * p.val = r.val; rw [e0, hr]; omega
  | ⟨1, _⟩ => show win3_0.index t 1 * 64 + 1 * q.val = q.val; rw [e1]; omega

theorem dblk3_apply (c : Dev nD) (t : Fin cfg3.N) (p : Fin 2000) (r : Fin 50000)
    (hr : r.val = t.val * 2000 + p.val) :
    (iblk3 V c 1 t : Vec F S2000x1 .f32) (ix2 p (0 : Fin 1)) = darr3 V c (ix2 r (0 : Fin 1)) := by
  obtain ⟨-, -, e0, e1, -⟩ := idx_facts3 t
  unfold iblk3
  rw [View.read_apply]
  show V c main_v58 _ = V c main_v58 _
  congr 1
  funext a
  apply Fin.ext
  match a with
  | ⟨0, _⟩ => show win3_1.index t 0 * 2000 + 1 * p.val = r.val; rw [e0, hr]; omega
  | ⟨1, _⟩ => show win3_1.index t 1 * 1 + 1 * 0 = 0; rw [e1]

theorem bblk3_apply (c : Dev nD) (t : Fin cfg3.N) (q : Fin 64) :
    (iblk3 V c 2 t : Vec F S1x64 .f32) (ix2 (0 : Fin 1) q) = barr3 V c (ix2 (0 : Fin 1) q) := by
  obtain ⟨-, -, -, -, e0, e1, -⟩ := idx_facts3 t
  unfold iblk3
  rw [View.read_apply]
  show V c main_v59 _ = V c main_v59 _
  congr 1
  funext a
  apply Fin.ext
  match a with
  | ⟨0, _⟩ => show win3_2.index t 0 * 1 + 1 * 0 = 0; rw [e0]
  | ⟨1, _⟩ => show win3_2.index t 1 * 64 + 1 * q.val = q.val; rw [e1]; omega

/-- What point t writes back is block t of the pass applied to the whole arrays. -/
theorem flushed3 (c : Dev nD) (t : Fin cfg3.N) :
    (dat3 V c).flushed 3 t
      = ((cfg3.win 3).blk t).view.read (Elt F) (scaleBias (aarr3 V c) (darr3 V c) (barr3 V c)) := by
  show (cfg3.win 3).cut (grid3.coords t) ((dat3 V c).after 3 t) = _
  rw [after3_3]
  unfold out3_3
  rw [View.canon_unit_zero hz3]
  simp only [View.ld_unit_zero (S := S2000x64) hz3, View.ld_unit_zero (S := S2000x1) hz3, View.ld_unit_zero (S := S1x64) hz3]
  obtain ⟨-, -, -, -, -, -, e0, e1⟩ := idx_facts3 t
  funext j
  show k3_pay1 (iblk3 V c 0 t) (iblk3 V c 1 t) (iblk3 V c 2 t) j
    = scaleBias (aarr3 V c) (darr3 V c) (barr3 V c) (((cfg3.win 3).blk t).view.emb j)
  refine tile3_eq (iblk3 V c 0 t) (iblk3 V c 1 t) (iblk3 V c 2 t) (aarr3 V c) (darr3 V c) (barr3 V c) t.val j
    (((cfg3.win 3).blk t).view.emb j)
    (fun p q r hr => ablk3_apply V c t p q r hr) (fun p r hr => dblk3_apply V c t p r hr) (fun q => bblk3_apply V c t q) ?_ ?_
  · show win3_3.index t 0 * 2000 + 1 * (j 0).val = t.val * 2000 + (j 0).val
    rw [e0]; omega
  · show win3_3.index t 1 * 64 + 1 * (j 1).val = (j 1).val
    rw [e1]; omega

/-- An entry of the output array is in point t's block iff each coordinate is in the block's range on its axis. -/
theorem mem_blk3 (t : Fin cfg3.N) (i : S50000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v60).slice (win3_3.rect t)).set ↔ _
  rw [View.set_slice_whole, Rect.mem_set_unit]
  exact Iff.rfl

/-- The output array after the region: the pass applied to the three arrays (row r lies in block r / 2000). -/
theorem final3 (c : Dev nD) : (dat3 V c).arrAt 3 cfg3.N = scaleBias (aarr3 V c) (darr3 V c) (barr3 V c) :=
  (dat3 V c).arrAt_eq_of_cover 3 (scaleBias (aarr3 V c) (darr3 V c) (barr3 V c)) (fun t _ => flushed3 V c t) fun i => by
    have hi0 : (i 0).val < 50000 := (i 0).isLt
    have hi1 : (i 1).val < 64 := (i 1).isLt
    have hN : cfg3.N = 25 := rfl
    let t : Fin cfg3.N := ⟨(i 0).val / 2000, by rw [hN]; omega⟩
    obtain ⟨-, -, -, -, -, -, e0, e1⟩ := idx_facts3 t
    have ht : t.val = (i 0).val / 2000 := rfl
    refine ⟨t, flush3_3 t, ?_⟩
    rw [mem_blk3]
    intro a
    match a with
    | ⟨0, _⟩ =>
      show win3_3.index t 0 * 2000 ≤ (i 0).val ∧ (i 0).val < win3_3.index t 0 * 2000 + 2000
      rw [e0, ht]; omega
    | ⟨1, _⟩ =>
      show win3_3.index t 1 * 64 ≤ (i 1).val ∧ (i 1).val < win3_3.index t 1 * 64 + 64
      rw [e1]; omega

end Cert.KernelIdeal.Hand

end
-- ==== Proof.Bridge.lean ====
/-
  The four regions' whole-array functions against the reference's stages.

  Over the extended reals the host's product of two arrays is the plain sum over the contracted coordinate, which is
  what a product region leaves in its output array; and a scale-and-bias region's function, fed the destination norm
  cast to a column and the bias cast to a row, is entry by entry the reference's agg · norm + bias with the norm and
  the bias broadcast along the other axis (followed by the maximum with zero in the first layer).
-/
import proofs.«135512_j31576599560550_1_alg».proof.Proof.Gen.ReferenceIdeal.Read
import proofs.«135512_j31576599560550_1_alg».proof.Proof.Product0
import proofs.«135512_j31576599560550_1_alg».proof.Proof.Product2
import proofs.«135512_j31576599560550_1_alg».proof.Proof.ScaleBias1
import proofs.«135512_j31576599560550_1_alg».proof.Proof.ScaleBias3
import proofs.«135512_j31576599560550_1_alg».proof.Proof.LibPlainProduct
import proofs.«135512_j31576599560550_1_alg».proof.Proof.LibScaleTile
import Idealize.ShloMosaic.Lib.ValueLayout

noncomputable section

open Idealize.ShloMosaic Idealize.ShloMosaic.ValueIdx

namespace Cert.KernelIdeal.Hand

open Cert.KernelIdeal Cert.KernelIdeal.Gen

/-! ## The products -/

/-- The first layer's product of the two argument arrays is the reference's. -/
theorem prod0_eq_ref (x0 : Vec Ideal S50000x256 .f32) (x1 : Vec Ideal S256x128 .f32) :
    prod0 x0 x1 = Cert.ReferenceIdeal.Read.val_main_v13 (F := Ideal) x0 x1 :=
  (Cert.PlainProduct.dotGeneral_eq_prod (M := 50000) (K := 256) (N := 128) (φ₁ := .f32) (φ₂ := .f32) none x0 x1).symm

/-- The second layer's product of the reference's hidden array by the second weight array is the reference's. -/
theorem prod2_eq_ref (x0 : Vec Ideal S50000x256 .f32) (x1 : Vec Ideal S256x128 .f32) (x2 : Vec Ideal S128 .f32)
    (x3 : Vec Ideal S128x64 .f32) (x5 x6 : (⟨S800000, .i32⟩ : BufTy).Contents (Elt Ideal)) :
    prod2 (Cert.ReferenceIdeal.Read.val_main_v40 (F := Ideal) x0 x1 x2 x5 x6) x3 = Cert.ReferenceIdeal.Read.val_main_v41 (F := Ideal) x0 x1 x2 x3 x5 x6 :=
  (Cert.PlainProduct.dotGeneral_eq_prod (M := 50000) (K := 128) (N := 64) (φ₁ := .f32) (φ₂ := .f32) none
    (Cert.ReferenceIdeal.Read.val_main_v40 (F := Ideal) x0 x1 x2 x5 x6) x3).symm

/-! ## The scale-and-bias passes -/

variable {F : FTy → Type} [FloatOps F]

/-- The first pass, fed the reference's aggregated messages, the destination norm as a column and the first bias as a
    row, is the reference's hidden array. -/
theorem pass1_eq_ref (x0 : Vec F S50000x256 .f32) (x1 : Vec F S256x128 .f32) (x2 : Vec F S128 .f32)
    (x5 x6 : (⟨S800000, .i32⟩ : BufTy).Contents (Elt F)) :
    scaleBiasRelu (Cert.ReferenceIdeal.Read.val_main_v33 (F := F) x0 x1 x5 x6)
        (shapeCast S50000x1 (Cert.ReferenceIdeal.Read.val_main_v12 (F := F) x6) shapeCasts_S50000_S50000x1)
        (shapeCast S1x128 x2 shapeCasts_S128_S1x128)
      = Cert.ReferenceIdeal.Read.val_main_v40 (F := F) x0 x1 x2 x5 x6 := by
  funext i
  obtain ⟨r, q, rfl⟩ : ∃ (r : Fin 50000) (q : Fin 128), i = ix2 r q := ⟨i 0, i 1, eq_ix2 i⟩
  have e1 : Cert.ReferenceIdeal.Read.idx_main_v34 (Cert.ReferenceIdeal.Read.idx_main_v35 (ix2 r q)) = ix1 r :=
    funext fun a => Fin.ext (by match a with | ⟨0, _⟩ => rfl)
  have e2 : Cert.ReferenceIdeal.Read.idx_main_v37 (Cert.ReferenceIdeal.Read.idx_main_v38 (ix2 r q)) = ix1 q :=
    funext fun a => Fin.ext (by match a with | ⟨0, _⟩ => rfl)
  rw [scaleBiasRelu_apply, Cert.ReferenceIdeal.Read.val_main_v40_apply, Cert.ReferenceIdeal.Read.val_main_v39_apply, Cert.ReferenceIdeal.Read.val_main_v36_apply,
    Cert.ReferenceIdeal.Read.val_main_v35_apply, Cert.ReferenceIdeal.Read.val_main_v34_apply, Cert.ReferenceIdeal.Read.val_main_v38_apply, Cert.ReferenceIdeal.Read.val_main_v37_apply,
    Cert.ReferenceIdeal.Read.val_main_call0_v0_apply, Cert.ReferenceIdeal.Read.val_main_call0_cst_apply, e1, e2,
    Cert.ScaleTile.shapeCast_a_a1_apply, shapeCast_a_1a_apply]

/-- The second pass, fed the reference's aggregated messages, the destination norm as a column and the second bias
    as a row, is the reference's result. -/
theorem pass3_eq_ref (x0 : Vec F S50000x256 .f32) (x1 : Vec F S256x128 .f32) (x2 : Vec F S128 .f32)
    (x3 : Vec F S128x64 .f32) (x4 : Vec F S64 .f32) (x5 x6 : (⟨S800000, .i32⟩ : BufTy).Contents (Elt F)) :
    scaleBias (Cert.ReferenceIdeal.Read.val_main_v61 (F := F) x0 x1 x2 x3 x5 x6)
        (shapeCast S50000x1 (Cert.ReferenceIdeal.Read.val_main_v12 (F := F) x6) shapeCasts_S50000_S50000x1)
        (shapeCast S1x64 x4 shapeCasts_S64_S1x64)
      = Cert.ReferenceIdeal.Read.val_main_v67 (F := F) x0 x1 x2 x3 x4 x5 x6 := by
  funext i
  obtain ⟨r, q, rfl⟩ : ∃ (r : Fin 50000) (q : Fin 64), i = ix2 r q := ⟨i 0, i 1, eq_ix2 i⟩
  have e1 : Cert.ReferenceIdeal.Read.idx_main_v62 (Cert.ReferenceIdeal.Read.idx_main_v63 (ix2 r q)) = ix1 r :=
    funext fun a => Fin.ext (by match a with | ⟨0, _⟩ => rfl)
  have e2 : Cert.ReferenceIdeal.Read.idx_main_v65 (Cert.ReferenceIdeal.Read.idx_main_v66 (ix2 r q)) = ix1 q :=
    funext fun a => Fin.ext (by match a with | ⟨0, _⟩ => rfl)
  rw [scaleBias_apply, Cert.ReferenceIdeal.Read.val_main_v67_apply, Cert.ReferenceIdeal.Read.val_main_v64_apply,
    Cert.ReferenceIdeal.Read.val_main_v63_apply, Cert.ReferenceIdeal.Read.val_main_v62_apply, Cert.ReferenceIdeal.Read.val_main_v66_apply, Cert.ReferenceIdeal.Read.val_main_v65_apply, e1, e2,
    Cert.ScaleTile.shapeCast_a_a1_apply, shapeCast_a_1a_apply]

end Cert.KernelIdeal.Hand

end
-- ==== Proof.KernelValue.lean ====
/-
  The kernel program's result as the reference's function of the arguments, over the extended reals.

  The buffer contents at each boundary between a host stretch and a region are followed from the launch to the return.
  Before region 0 the two degree norms are the reference's and the arguments are untouched. Region 0 leaves the product
  x · W1, which over the extended reals is the reference's first product. The next stretch gathers, scales and
  scatter-adds exactly as the reference does, so it leaves the reference's aggregated messages; region 1 then leaves
  the reference's hidden array max(agg · d + b1, 0), region 2 its product with W2, the last stretch the second layer's
  aggregated messages, and region 3 the reference's result agg · d + b2. No buffer read later is overwritten on the way.
-/
import proofs.«135512_j31576599560550_1_alg».proof.Proof.KernelRun
import proofs.«135512_j31576599560550_1_alg».proof.Proof.HostStages
import proofs.«135512_j31576599560550_1_alg».proof.Proof.Bridge

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The arguments as launched. -/
abbrev in0 (c : Dev nD) : Vec Ideal S50000x256 .f32 := m ((c : Thread nD τ).loc main_arg0)
abbrev in1 (c : Dev nD) : Vec Ideal S256x128 .f32 := m ((c : Thread nD τ).loc main_arg1)
abbrev in2 (c : Dev nD) : Vec Ideal S128 .f32 := m ((c : Thread nD τ).loc main_arg2)
abbrev in3 (c : Dev nD) : Vec Ideal S128x64 .f32 := m ((c : Thread nD τ).loc main_arg3)
abbrev in4 (c : Dev nD) : Vec Ideal S64 .f32 := m ((c : Thread nD τ).loc main_arg4)
abbrev in5 (c : Dev nD) : (⟨S800000, .i32⟩ : BufTy).Contents (Elt Ideal) := m ((c : Thread nD τ).loc main_arg5)
abbrev in6 (c : Dev nD) : (⟨S800000, .i32⟩ : BufTy).Contents (Elt Ideal) := m ((c : Thread nD τ).loc main_arg6)

/-! ## After region 0 -/

theorem W2_v13 (c : Dev nD) :
    W2 m ρ c (Proc.devRef .tc main_v13) = Cert.ReferenceIdeal.Read.val_main_v13 (F := Ideal) (in0 m c) (in1 m c) := by
  refine (W2_arr m ρ c 2).trans ?_
  rw [final0 (V1 m ρ) c]
  show prod0 (W1 m ρ c (Proc.devRef .tc main_arg0)) (W1 m ρ c (Proc.devRef .tc main_arg1)) = _
  rw [W1_arg0, W1_arg1]
  exact prod0_eq_ref _ _

theorem W2_v9 (c : Dev nD) : W2 m ρ c (Proc.devRef .tc main_v9) = Cert.ReferenceIdeal.Read.val_main_v9 (F := Ideal) (in5 m c) :=
  (W2_of_ne m ρ c main_v9 (by decide)).trans (W1_v9 m ρ c)
theorem W2_v12 (c : Dev nD) : W2 m ρ c (Proc.devRef .tc main_v12) = Cert.ReferenceIdeal.Read.val_main_v12 (F := Ideal) (in6 m c) :=
  (W2_of_ne m ρ c main_v12 (by decide)).trans (W1_v12 m ρ c)
theorem W2_arg2 (c : Dev nD) : W2 m ρ c (Proc.devRef .tc main_arg2) = in2 m c :=
  (W2_of_ne m ρ c main_arg2 (by decide)).trans (W1_arg2 m ρ c)
theorem W2_arg3 (c : Dev nD) : W2 m ρ c (Proc.devRef .tc main_arg3) = in3 m c :=
  (W2_of_ne m ρ c main_arg3 (by decide)).trans (W1_arg3 m ρ c)
theorem W2_arg4 (c : Dev nD) : W2 m ρ c (Proc.devRef .tc main_arg4) = in4 m c :=
  (W2_of_ne m ρ c main_arg4 (by decide)).trans (W1_arg4 m ρ c)
theorem W2_arg5 (c : Dev nD) : W2 m ρ c (Proc.devRef .tc main_arg5) = in5 m c :=
  (W2_of_ne m ρ c main_arg5 (by decide)).trans (W1_arg5 m ρ c)
theorem W2_arg6 (c : Dev nD) : W2 m ρ c (Proc.devRef .tc main_arg6) = in6 m c :=
  (W2_of_ne m ρ c main_arg6 (by decide)).trans (W1_arg6 m ρ c)

/-! ## Before region 1 -/

theorem W3_v33' (c : Dev nD) :
    W3 m ρ c (Proc.devRef .tc main_v33) = Cert.ReferenceIdeal.Read.val_main_v33 (F := Ideal) (in0 m c) (in1 m c) (in5 m c) (in6 m c) :=
  W3_v33 m ρ c _ _ _ _ (W2_v13 m ρ c) (W2_v9 m ρ c) (W2_arg5 m ρ c) (W2_arg6 m ρ c)
theorem W3_v34' (c : Dev nD) :
    W3 m ρ c (Proc.devRef .tc main_v34) = shapeCast S50000x1 (Cert.ReferenceIdeal.Read.val_main_v12 (F := Ideal) (in6 m c)) shapeCasts_S50000_S50000x1 :=
  W3_v34 m ρ c _ (W2_v12 m ρ c)
theorem W3_v35' (c : Dev nD) :
    W3 m ρ c (Proc.devRef .tc main_v35) = shapeCast S1x128 (in2 m c) shapeCasts_S128_S1x128 :=
  W3_v35 m ρ c _ (W2_arg2 m ρ c)

/-! ## After region 1 -/

theorem W4_v36 (c : Dev nD) :
    W4 m ρ c (Proc.devRef .tc main_v36)
      = Cert.ReferenceIdeal.Read.val_main_v40 (F := Ideal) (in0 m c) (in1 m c) (in2 m c) (in5 m c) (in6 m c) := by
  refine (W4_arr m ρ c 3).trans ?_
  rw [final1 (V3 m ρ) c]
  show scaleBiasRelu (W3 m ρ c (Proc.devRef .tc main_v33)) (W3 m ρ c (Proc.devRef .tc main_v34)) (W3 m ρ c (Proc.devRef .tc main_v35)) = _
  rw [W3_v33', W3_v34', W3_v35']
  exact pass1_eq_ref _ _ _ _ _

theorem W4_v9 (c : Dev nD) : W4 m ρ c (Proc.devRef .tc main_v9) = Cert.ReferenceIdeal.Read.val_main_v9 (F := Ideal) (in5 m c) :=
  (W4_of_ne m ρ c main_v9 (by decide)).trans ((W3_v9 m ρ c).trans (W2_v9 m ρ c))
theorem W4_v12 (c : Dev nD) : W4 m ρ c (Proc.devRef .tc main_v12) = Cert.ReferenceIdeal.Read.val_main_v12 (F := Ideal) (in6 m c) :=
  (W4_of_ne m ρ c main_v12 (by decide)).trans ((W3_v12 m ρ c).trans (W2_v12 m ρ c))
theorem W4_arg3 (c : Dev nD) : W4 m ρ c (Proc.devRef .tc main_arg3) = in3 m c :=
  (W4_of_ne m ρ c main_arg3 (by decide)).trans ((W3_arg3 m ρ c).trans (W2_arg3 m ρ c))
theorem W4_arg4 (c : Dev nD) : W4 m ρ c (Proc.devRef .tc main_arg4) = in4 m c :=
  (W4_of_ne m ρ c main_arg4 (by decide)).trans ((W3_arg4 m ρ c).trans (W2_arg4 m ρ c))
theorem W4_arg5 (c : Dev nD) : W4 m ρ c (Proc.devRef .tc main_arg5) = in5 m c :=
  (W4_of_ne m ρ c main_arg5 (by decide)).trans ((W3_arg5 m ρ c).trans (W2_arg5 m ρ c))
theorem W4_arg6 (c : Dev nD) : W4 m ρ c (Proc.devRef .tc main_arg6) = in6 m c :=
  (W4_of_ne m ρ c main_arg6 (by decide)).trans ((W3_arg6 m ρ c).trans (W2_arg6 m ρ c))

/-! ## After region 2 -/

theorem W5_v37 (c : Dev nD) :
    W5 m ρ c (Proc.devRef .tc main_v37)
      = Cert.ReferenceIdeal.Read.val_main_v41 (F := Ideal) (in0 m c) (in1 m c) (in2 m c) (in3 m c) (in5 m c) (in6 m c) := by
  refine (W5_arr m ρ c 2).trans ?_
  rw [final2 (V4 m ρ) c]
  show prod2 (W4 m ρ c (Proc.devRef .tc main_v36)) (W4 m ρ c (Proc.devRef .tc main_arg3)) = _
  rw [W4_v36, W4_arg3]
  exact prod2_eq_ref _ _ _ _ _ _

theorem W5_v9 (c : Dev nD) : W5 m ρ c (Proc.devRef .tc main_v9) = Cert.ReferenceIdeal.Read.val_main_v9 (F := Ideal) (in5 m c) :=
  (W5_of_ne m ρ c main_v9 (by decide)).trans (W4_v9 m ρ c)
theorem W5_v12 (c : Dev nD) : W5 m ρ c (Proc.devRef .tc main_v12) = Cert.ReferenceIdeal.Read.val_main_v12 (F := Ideal) (in6 m c) :=
  (W5_of_ne m ρ c main_v12 (by decide)).trans (W4_v12 m ρ c)
theorem W5_arg4 (c : Dev nD) : W5 m ρ c (Proc.devRef .tc main_arg4) = in4 m c :=
  (W5_of_ne m ρ c main_arg4 (by decide)).trans (W4_arg4 m ρ c)
theorem W5_arg5 (c : Dev nD) : W5 m ρ c (Proc.devRef .tc main_arg5) = in5 m c :=
  (W5_of_ne m ρ c main_arg5 (by decide)).trans (W4_arg5 m ρ c)
theorem W5_arg6 (c : Dev nD) : W5 m ρ c (Proc.devRef .tc main_arg6) = in6 m c :=
  (W5_of_ne m ρ c main_arg6 (by decide)).trans (W4_arg6 m ρ c)

/-! ## Before region 3 -/

theorem W6_v57' (c : Dev nD) :
    W6 m ρ c (Proc.devRef .tc main_v57)
      = Cert.ReferenceIdeal.Read.val_main_v61 (F := Ideal) (in0 m c) (in1 m c) (in2 m c) (in3 m c) (in5 m c) (in6 m c) :=
  W6_v57 m ρ c _ _ _ _ _ _ (W5_v37 m ρ c) (W5_v9 m ρ c) (W5_arg5 m ρ c) (W5_arg6 m ρ c)
theorem W6_v58' (c : Dev nD) :
    W6 m ρ c (Proc.devRef .tc main_v58) = shapeCast S50000x1 (Cert.ReferenceIdeal.Read.val_main_v12 (F := Ideal) (in6 m c)) shapeCasts_S50000_S50000x1 :=
  W6_v58 m ρ c _ (W5_v12 m ρ c)
theorem W6_v59' (c : Dev nD) :
    W6 m ρ c (Proc.devRef .tc main_v59) = shapeCast S1x64 (in4 m c) shapeCasts_S64_S1x64 :=
  W6_v59 m ρ c _ (W5_arg4 m ρ c)

/-! ## After region 3: the result -/

/-- The reference's result as a function of the kernel program's arguments. -/
abbrev result (c : Dev nD) : Vec Ideal S50000x64 .f32 :=
  Cert.ReferenceIdeal.Read.val_main_v67 (F := Ideal) (in0 m c) (in1 m c) (in2 m c) (in3 m c) (in4 m c) (in5 m c) (in6 m c)

theorem W7_v60 (c : Dev nD) : W7 m ρ c (Proc.devRef .tc main_v60) = result m c := by
  refine (W7_arr m ρ c 3).trans ?_
  rw [final3 (V6 m ρ) c]
  show scaleBias (W6 m ρ c (Proc.devRef .tc main_v57)) (W6 m ρ c (Proc.devRef .tc main_v58)) (W6 m ρ c (Proc.devRef .tc main_v59)) = _
  rw [W6_v57', W6_v58', W6_v59']
  exact pass3_eq_ref _ _ _ _ _ _ _

/-- The run, read: the result buffer ends at the reference's function of the arguments, the arguments unchanged. -/
theorem run_value : θ_run defs (onTc (τ := τ) (main (F := Ideal))) ⟨m, fun _ => 0, ρ⟩ (fun r => ∀ c : Dev nD,
      r.2.mem ((c.tc : Thread nD τ).loc main_v60) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W7_v60 m ρ c), (h c).2⟩) (Cert.KernelIdeal.GenRun.run (F := Ideal) m ρ)

end Cert.KernelIdeal.Hand

end
-- ==== Proof.lean ====
/-
  A two-layer graph convolution, the kernel program against its plain reference, over the extended reals.

  Both programs compute, from node features x, weights W1 and W2, biases b1 and b2, and edge lists src and dst:
  the degree norms cs = rsqrt(max(deg_out, 1)) and cd = rsqrt(max(deg_in, 1)) by scatter-adds of ones; then per layer
  h' = (scatter-add over dst of (h · W)[src] · cs[src]) · cd + b, with max(·, 0) after the first layer. The kernel
  program runs the two products and the two scale-and-bias passes as four pipelined regions over 25 row blocks of 2000
  nodes each, and everything else (gathers, scatter-adds, the norms) as the same host operations as the reference.

  Over the extended reals a change of float format is the identity and a product into a zero accumulator is the plain
  sum over the contracted coordinate, so each product region leaves the host product of its two arrays; each
  scale-and-bias region leaves agg · cd + b entry by entry. The host operations in between are the reference's own,
  applied to equal operands. No algebraic law relates the two sides beyond these, and finiteness of the inputs is not
  used. The three frames are the generated ones (the reference's is its generated run with the result dropped), and the
  kernel program's idealization rewrote nothing.
-/
import proofs.«135512_j31576599560550_1_alg».proof.Defs
import proofs.«135512_j31576599560550_1_alg».proof.Proof.Gen.Kernel
import proofs.«135512_j31576599560550_1_alg».proof.Proof.Gen.Kernel.Frame
import proofs.«135512_j31576599560550_1_alg».proof.Proof.Gen.KernelIdeal
import proofs.«135512_j31576599560550_1_alg».proof.Proof.Gen.KernelIdeal.Frame
import proofs.«135512_j31576599560550_1_alg».proof.Proof.Gen.ReferenceIdeal
import proofs.«135512_j31576599560550_1_alg».proof.Proof.Gen.ReferenceIdeal.Run
import proofs.«135512_j31576599560550_1_alg».proof.Proof.Gen.ReferenceIdeal.Read
import proofs.«135512_j31576599560550_1_alg».proof.Proof.Gen.Pre_finite_inputs
import proofs.«135512_j31576599560550_1_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : @Cert.frame_Kernel Cert.Kernel.Gen.facts Cert.Pre_finite_inputs.Gen.facts :=
  fun m ρ _ => Cert.Kernel.Gen.frame m ρ

/-- The idealized program runs and keeps its arguments. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result buffer at the reference's last stage applied to their own arguments, and the
    arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
